-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_sqrt_c" .f32 0x3DB504F3#32 ((1048576 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x128x64x64 : Shape := ⟨4, ![4, 128, 64, 64]⟩
abbrev S_ : Shape := ⟨0, ![]⟩

class Facts : Prop where
  bcast_S_S4x128x64x64 : S_.BroadcastsInDim S4x128x64x64 (![] : Fin 0 → Fin S4x128x64x64.rank)
  reducesTo_S4x128x64x64_S_d0_1_2_3 : S4x128x64x64.ReducesTo [0, 1, 2, 3] S_
  h_S_ : 0 < S_.numel

variable [Facts]

def fn {F : FTy → Type} [FloatOps F] (main_arg0 : FVec F S4x128x64x64 .f32) (main_arg1 : FVec F S4x128x64x64 .f32) (main_arg2 : FVec F S4x128x64x64 .f32) : IVec S_ 1 :=
  let main_v0 : FVec F S4x128x64x64 .f32 := Host.absf main_arg0
  let main_cst : FVec F S_ .f32 := constant S_ .f32 0x7F800000#32
  let main_v1 : FVec F S4x128x64x64 .f32 := broadcastInDim S4x128x64x64 ![] bcast_S_S4x128x64x64 main_cst
  let main_v2 : IVec S4x128x64x64 1 := cmpf .olt main_v0 main_v1
  let main_c : IVec S_ 1 := constantI S_ 1 1#1
  let main_v3 : IVec S_ 1 := (fun x v => Host.reduce IntOp.andi x v reducesTo_S4x128x64x64_S_d0_1_2_3 h_S_) main_v2 main_c
  let main_v4 : FVec F S4x128x64x64 .f32 := Host.absf main_arg1
  let main_cst_0 : FVec F S_ .f32 := constant S_ .f32 0x7F800000#32
  let main_v5 : FVec F S4x128x64x64 .f32 := broadcastInDim S4x128x64x64 ![] bcast_S_S4x128x64x64 main_cst_0
  let main_v6 : IVec S4x128x64x64 1 := cmpf .olt main_v4 main_v5
  let main_c_1 : IVec S_ 1 := constantI S_ 1 1#1
  let main_v7 : IVec S_ 1 := (fun x v => Host.reduce IntOp.andi x v reducesTo_S4x128x64x64_S_d0_1_2_3 h_S_) main_v6 main_c_1
  let main_v8 : IVec S_ 1 := andi main_v3 main_v7
  let main_v9 : FVec F S4x128x64x64 .f32 := Host.absf main_arg2
  let main_cst_2 : FVec F S_ .f32 := constant S_ .f32 0x7F800000#32
  let main_v10 : FVec F S4x128x64x64 .f32 := broadcastInDim S4x128x64x64 ![] bcast_S_S4x128x64x64 main_cst_2
  let main_v11 : IVec S4x128x64x64 1 := cmpf .olt main_v9 main_v10
  let main_c_3 : IVec S_ 1 := constantI S_ 1 1#1
  let main_v12 : IVec S_ 1 := (fun x v => Host.reduce IntOp.andi x v reducesTo_S4x128x64x64_S_d0_1_2_3 h_S_) main_v11 main_c_3
  let main_v13 : IVec S_ 1 := andi main_v8 main_v12
  main_v13
-- ==== Kernel.lean ====
abbrev S4x128x64x64 : Shape := ⟨4, ![4, 128, 64, 64]⟩
abbrev S4x128x4096 : Shape := ⟨3, ![4, 128, 4096]⟩
abbrev S1x128x512 : Shape := ⟨3, ![1, 128, 512]⟩
abbrev S1x128x4096 : Shape := ⟨3, ![1, 128, 4096]⟩
abbrev S128x512 : Shape := ⟨2, ![128, 512]⟩
abbrev S128x4096 : Shape := ⟨2, ![128, 4096]⟩
abbrev S512x4096 : Shape := ⟨2, ![512, 4096]⟩
abbrev S512 : Shape := ⟨1, ![512]⟩
abbrev S512x1 : Shape := ⟨2, ![512, 1]⟩
abbrev S512x128 : Shape := ⟨2, ![512, 128]⟩

abbrev nBuf : Space → Nat
  | .hbm => 11
  | .vmem => 8
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x128x64x64, .f32⟩
  | .hbm, ⟨3, _⟩ => ⟨S4x128x4096, .f32⟩
  | .hbm, ⟨4, _⟩ => ⟨S4x128x4096, .bf16⟩
  | .hbm, ⟨5, _⟩ => ⟨S4x128x4096, .f32⟩
  | .hbm, ⟨6, _⟩ => ⟨S4x128x4096, .bf16⟩
  | .hbm, ⟨7, _⟩ => ⟨S4x128x4096, .f32⟩
  | .hbm, ⟨8, _⟩ => ⟨S4x128x4096, .bf16⟩
  | .hbm, ⟨9, _⟩ => ⟨S4x128x4096, .f32⟩
  | .hbm, ⟨10, _⟩ => ⟨S4x128x64x64, .f32⟩
  | .local _ .vmem, ⟨0, _⟩ => ⟨S1x128x512, .bf16⟩
  | .local _ .vmem, ⟨1, _⟩ => ⟨S1x128x512, .bf16⟩
  | .local _ .vmem, ⟨2, _⟩ => ⟨S1x128x4096, .bf16⟩
  | .local _ .vmem, ⟨3, _⟩ => ⟨S1x128x4096, .bf16⟩
  | .local _ .vmem, ⟨4, _⟩ => ⟨S1x128x4096, .bf16⟩
  | .local _ .vmem, ⟨5, _⟩ => ⟨S1x128x4096, .bf16⟩
  | .local _ .vmem, ⟨6, _⟩ => ⟨S1x128x512, .f32⟩
  | .local _ .vmem, ⟨7, _⟩ => ⟨S1x128x512, .f32⟩
  | _, _ => ⟨S4x128x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S4x128x64x64_S4x128x4096 : S4x128x64x64.ShapeCasts S4x128x4096
  bitsLt_bf16_f32 : FTy.bits .bf16 < FTy.bits .f32
  inb_S1x128x512_S1x128x512_0_0_0 : ∀ a, (![0, 0, 0] : Fin 3 → Nat) a + S1x128x512.size a ≤ S1x128x512.size a
  h_S1x128x512 : 0 < S1x128x512.numel
  shapeCasts_S1x128x512_S128x512 : S1x128x512.ShapeCasts S128x512
  inb_S1x128x4096_S1x128x4096_0_0_0 : ∀ a, (![0, 0, 0] : Fin 3 → Nat) a + S1x128x4096.size a ≤ S1x128x4096.size a
  h_S1x128x4096 : 0 < S1x128x4096.numel
  shapeCasts_S1x128x4096_S128x4096 : S1x128x4096.ShapeCasts S128x4096
  reduces_S512x4096_S512 : S512x4096.Reduces [1] S512
  shapeCasts_S512_S512x1 : S512.ShapeCasts S512x1
  broadcasts_S512x1_S512x4096 : S512x1.Broadcasts S512x4096
  broadcasts_S512x1_S512x128 : S512x1.Broadcasts S512x128
  transposes_S512x128_p1_0_S128x512 : S512x128.Transposes [1, 0] S128x512
  shapeCasts_S128x512_S1x128x512 : S128x512.ShapeCasts S1x128x512
  shapeCasts_S4x128x4096_S4x128x64x64 : S4x128x4096.ShapeCasts S4x128x64x64
  dot_S128x512_S128x4096_S512x4096_0_0_1_1_n_n_wf : DotDims.WF S128x512 S128x4096 S512x4096 [0] [0] [1] [1] [] []
  dot_S512x4096_S128x4096_S512x128_1_1_0_0_n_n_wf : DotDims.WF S512x4096 S128x4096 S512x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x512.size a ≤ S4x128x4096.size a
  hwx0_0 : ∀ i : grid0.Coords, EltTy.bits .bf16 = 32 ∨ (Rect.block (s := S4x128x4096) S1x128x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x4096.size a ≤ S4x128x4096.size a
  hwx0_1 : ∀ i : grid0.Coords, EltTy.bits .bf16 = 32 ∨ (Rect.block (s := S4x128x4096) S1x128x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128x4096.size a ≤ S4x128x4096.size a
  hwx0_2 : ∀ i : grid0.Coords, EltTy.bits .bf16 = 32 ∨ (Rect.block (s := S4x128x4096) S1x128x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x512.size a ≤ S4x128x4096.size a
  hwx0_3 : ∀ i : grid0.Coords, EltTy.bits .f32 = 32 ∨ (Rect.block (s := S4x128x4096) S1x128x512.size (cc0_transform_3 i) (hinb0_3 i)).WholeWords (EltTy.packing .f32)

variable [Facts₀]

def dot_S128x512_S128x4096_S512x4096_0_0_1_1_n_n : DotDims S128x512 S128x4096 S512x4096 where
  lhsContracting := [0]
  rhsContracting := [0]
  lhsNonContracting := [1]
  rhsNonContracting := [1]
  lhsBatch := []
  rhsBatch := []
  wf := dot_S128x512_S128x4096_S512x4096_0_0_1_1_n_n_wf
def dot_S512x4096_S128x4096_S512x128_1_1_0_0_n_n : DotDims S512x4096 S128x4096 S512x128 where
  lhsContracting := [1]
  rhsContracting := [1]
  lhsNonContracting := [0]
  rhsNonContracting := [0]
  lhsBatch := []
  rhsBatch := []
  wf := dot_S512x4096_S128x4096_S512x128_1_1_0_0_n_n_wf

abbrev win0_0 : Pipeline.Window sig grid0 :=
  Pipeline.Window.ofSpec (Memref.whole main_v3) S1x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x128x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x128x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x128x64x64 : Shape := ⟨4, ![4, 128, 64, 64]⟩
abbrev S4x128x4096 : Shape := ⟨3, ![4, 128, 4096]⟩
abbrev S4x4096x4096 : Shape := ⟨3, ![4, 4096, 4096]⟩
abbrev S_ : Shape := ⟨0, ![]⟩
abbrev S4x4096 : Shape := ⟨2, ![4, 4096]⟩
abbrev S4x1x4096 : Shape := ⟨3, ![4, 1, 4096]⟩

abbrev nBuf : Space → Nat
  | .hbm => 26
  | .vmem => 0
  | .smem => 0
  | _ => 0

abbrev bufTy : (tb : Table) → Fin (tcTables nBuf tb) → BufTy
  | .hbm, ⟨0, _⟩ => ⟨S4x128x64x64, .f32⟩
  | .hbm, ⟨1, _⟩ => ⟨S4x128x64x64, .f32⟩
  | .hbm, ⟨2, _⟩ => ⟨S4x128x64x64, .f32⟩
  | .hbm, ⟨3, _⟩ => ⟨S4x128x4096, .f32⟩
  | .hbm, ⟨4, _⟩ => ⟨S4x128x4096, .f32⟩
  | .hbm, ⟨5, _⟩ => ⟨S4x128x4096, .f32⟩
  | .hbm, ⟨6, _⟩ => ⟨S4x4096x4096, .f32⟩
  | .hbm, ⟨7, _⟩ => ⟨S_, .f32⟩
  | .hbm, ⟨8, _⟩ => ⟨S4x4096x4096, .f32⟩
  | .hbm, ⟨9, _⟩ => ⟨S4x4096x4096, .f32⟩
  | .hbm, ⟨10, _⟩ => ⟨S_, .f32⟩
  | .hbm, ⟨11, _⟩ => ⟨S4x4096, .f32⟩
  | .hbm, ⟨12, _⟩ => ⟨S_, .f32⟩
  | .hbm, ⟨13, _⟩ => ⟨S4x4096, .f32⟩
  | .hbm, ⟨14, _⟩ => ⟨S4x4096, .f32⟩
  | .hbm, ⟨15, _⟩ => ⟨S4x1x4096, .f32⟩
  | .hbm, ⟨16, _⟩ => ⟨S4x4096x4096, .f32⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S4x1x4096, .f32⟩
  | .hbm, ⟨22, _⟩ => ⟨S4x4096x4096, .f32⟩
  | .hbm, ⟨23, _⟩ => ⟨S4x4096x4096, .f32⟩
  | .hbm, ⟨24, _⟩ => ⟨S4x128x4096, .f32⟩
  | .hbm, ⟨25, _⟩ => ⟨S4x128x64x64, .f32⟩
  | _, _ => ⟨S4x128x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]

class Facts₀ : Prop where
  shapeCasts_S4x128x64x64_S4x128x4096 : S4x128x64x64.ShapeCasts S4x128x4096
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S_S4x4096 : S_.BroadcastsInDim S4x4096 (![] : Fin 0 → Fin S4x4096.rank)
  bcast_S4x4096_S4x1x4096_0_2 : S4x4096.BroadcastsInDim S4x1x4096 (![0, 2] : Fin 2 → Fin S4x1x4096.rank)
  bcast_S4x1x4096_S4x4096x4096_0_1_2 : S4x1x4096.BroadcastsInDim S4x4096x4096 (![0, 1, 2] : Fin 3 → Fin S4x4096x4096.rank)
  shapeCasts_S4x128x4096_S4x128x64x64 : S4x128x4096.ShapeCasts S4x128x64x64
  dot_S4x128x4096_S4x128x4096_S4x4096x4096_1_1_2_2_0_0_wf : DotDims.WF S4x128x4096 S4x128x4096 S4x4096x4096 [1] [1] [2] [2] [0] [0]
  dot_S4x128x4096_S4x4096x4096_S4x128x4096_2_1_1_2_0_0_wf : DotDims.WF S4x128x4096 S4x4096x4096 S4x128x4096 [2] [1] [1] [2] [0] [0]

variable [Facts₀]

def dot_S4x128x4096_S4x128x4096_S4x4096x4096_1_1_2_2_0_0 : DotDims S4x128x4096 S4x128x4096 S4x4096x4096 where
  lhsContracting := [1]
  rhsContracting := [1]
  lhsNonContracting := [2]
  rhsNonContracting := [2]
  lhsBatch := [0]
  rhsBatch := [0]
  wf := dot_S4x128x4096_S4x128x4096_S4x4096x4096_1_1_2_2_0_0_wf
def dot_S4x128x4096_S4x4096x4096_S4x128x4096_2_1_1_2_0_0 : DotDims S4x128x4096 S4x4096x4096 S4x128x4096 where
  lhsContracting := [2]
  rhsContracting := [1]
  lhsNonContracting := [1]
  rhsNonContracting := [2]
  lhsBatch := [0]
  rhsBatch := [0]
  wf := dot_S4x128x4096_S4x4096x4096_S4x128x4096_2_1_1_2_0_0_wf

class Facts : Prop extends Facts₀ where

variable [Facts]
-- ==== Proof.Spec.lean ====
/-
  Single-head attention over the flattened spatial axis, as one function of the three flattened arrays
  (batch n, channel c, position s; 4 x 128 x 4096), on the extended reals.

  For a batch n, an output channel e and a query position t:
    score n t s  = (sum over c of q[n,c,t] * k[n,c,s]) * (1/D)        (D the reference's divisor)
    rowMax n t   = the maximum over s of score n t s (folded from -infinity)
    weight n t s = exp (score n t s - rowMax n t)
    attn[n,e,t]  = (sum over s of weight n t s * v[n,e,s]) / (sum over s of weight n t s)
  This is the form with the normalisation taken after the weighted sum (`attn`). The second form (`attnR`)
  divides each weight by the row's total before the weighted sum, divides the raw scores by D instead of
  multiplying by its reciprocal, and starts its sums and maxima from explicit initial values.
-/
import Idealize.ShloMosaic.PureOps.Ideal
import Idealize.ShloMosaic.Lib.ValueIdx

noncomputable section

namespace Cert.Attn

open Idealize.ShloMosaic Idealize.ShloMosaic.ValueIdx

/-- The flattened arrays' shape: batch, channel, position. -/
abbrev A3 : Shape := ⟨3, ![4, 128, 4096]⟩

/-- The reciprocal of the reference's divisor D = 11863283/1048576 (the single-precision value nearest to the
    square root of 128). -/
def scale : EReal := ((1048576 / 11863283 : ℝ) : EReal)

/-- The scaled score of query position `t` against key position `s`. -/
def score (k q : A3.Idx → EReal) (n : Fin 4) (t s : Fin 4096) : EReal :=
  (∑ c : Fin 128, q (ix3 n c t) * k (ix3 n c s)) * scale

/-- The largest score of query position `t`. -/
def rowMax (k q : A3.Idx → EReal) (n : Fin 4) (t : Fin 4096) : EReal :=
  (Finset.univ : Finset (Fin 4096)).fold max ⊥ (fun s => score k q n t s)

/-- The unnormalised softmax weight. -/
def weight (k q : A3.Idx → EReal) (n : Fin 4) (t s : Fin 4096) : EReal :=
  Ideal.exp (score k q n t s - rowMax k q n t)

/-- Attention at (n, e, t): the weighted sum of the values, normalised afterwards. -/
def attnAt (k q v : A3.Idx → EReal) (n : Fin 4) (e : Fin 128) (t : Fin 4096) : EReal :=
  Ideal.div (∑ s : Fin 4096, weight k q n t s * v (ix3 n e s)) (∑ s : Fin 4096, weight k q n t s)

/-- Attention as an array. -/
def attn (k q v : A3.Idx → EReal) : A3.Idx → EReal := fun i => attnAt k q v (i 0) (i 1) (i 2)

/-! ## The second form: scores divided by D, weights normalised before the weighted sum -/

/-- The divisor D as the reference spells it. -/
def divisor : EReal := Ideal.ofBits .f32 0x413504F3#32

/-- Minus infinity as both programs spell it. -/
def negInf : EReal := Ideal.ofBits .f32 0xFF800000#32

def scoreR (k q : A3.Idx → EReal) (n : Fin 4) (s t : Fin 4096) : EReal :=
  Ideal.div (∑ c : Fin 128, k (ix3 n c s) * q (ix3 n c t)) divisor

def rowMaxR (k q : A3.Idx → EReal) (n : Fin 4) (t : Fin 4096) : EReal :=
  max negInf ((Finset.univ : Finset (Fin 4096)).fold max negInf (fun s => scoreR k q n s t))

def weightR (k q : A3.Idx → EReal) (n : Fin 4) (s t : Fin 4096) : EReal :=
  Ideal.exp (scoreR k q n s t - rowMaxR k q n t)

def attnRAt (k q v : A3.Idx → EReal) (n : Fin 4) (e : Fin 128) (t : Fin 4096) : EReal :=
  ∑ s : Fin 4096, v (ix3 n e s) *
    Ideal.div (weightR k q n s t) (Ideal.ofBits .f32 0x00000000#32 + ∑ s' : Fin 4096, weightR k q n s' t)

def attnR (k q v : A3.Idx → EReal) : A3.Idx → EReal := fun i => attnRAt k q v (i 0) (i 1) (i 2)

end Cert.Attn

end
-- ==== Proof.Payload.lean ====
/-
  The body's result at an index. One grid point computes, from a block of queries (128 channels by 512 positions),
  the batch's keys and the batch's values (128 channels by 4096 positions each), the attention output for its 512
  positions: at channel `e` and position `t` of the block it is the weighted sum over the 4096 key positions of
  the values of channel `e`, the weights the exponentials of the scaled scores less their row maximum, divided by
  the row's total weight.
-/
import proofs.«429234_j68083821576702_3_alg».proof.Proof.Gen.KernelIdeal.Skeleton
import proofs.«429234_j68083821576702_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Hand

open Cert.KernelIdeal Cert.KernelIdeal.Gen Idealize.ShloMosaic Idealize.ShloMosaic.ValueIdx

/-- The scale the body multiplies the scores by is the reciprocal of the reference's divisor. -/
theorem scale_eq : Named.named (F := Ideal) κ "inv_sqrt_c" (φ := .f32) 0x3DB504F3#32 = Cert.Attn.scale :=
  IdealRules.named_const.ideal_named_scalar _ _ _ _ rfl

/-- The pattern of minus infinity is the bottom of the extended reals. -/
theorem negInf_eq : Ideal.ofBits .f32 0xFF800000#32 = (⊥ : EReal) := by simp [Ideal.ofBits, Ideal.ieee]

/-! ## A column of row statistics spread over the row -/

/-- A vector of 512 row statistics, written as a column and spread along each row, reads the row's statistic. -/
theorem column_spread_apply {α : Type} {m : ℕ} (x : (⟨1, ![512]⟩ : Shape).Idx → α)
    (h1 : (⟨1, ![512]⟩ : Shape).ShapeCasts ⟨2, ![512, 1]⟩) (h2 : (⟨2, ![512, 1]⟩ : Shape).Broadcasts ⟨2, ![512, m]⟩)
    (t : Fin 512) (s : Fin m) :
    broadcastTo ⟨2, ![512, m]⟩ (shapeCast ⟨2, ![512, 1]⟩ x h1) h2 (ix2 t s) = x (ix1 t) := by
  rw [broadcastTo_apply _ h2 (ix2 t s) (ix2 t (0 : Fin 1)) (fun a => by
    match a with
    | ⟨0, _⟩ => show t.val = if (512 : ℕ) = 1 then 0 else t.val; rw [if_neg (by decide)]
    | ⟨1, _⟩ => show 0 = if (1 : ℕ) = 1 then 0 else s.val; rw [if_pos rfl])]
  exact shapeCast_apply x h1 _ (ix1 t) (by
    rw [Shape.rowMajor_val_one, Shape.rowMajor_val_two]; show t.val = t.val * 1 + 0; omega)

/-- The index over row `t` with column `k` put back. -/
theorem lift_row (h : S512x4096.Reduces [1] S512) (t : Fin 512) (k : Fin (S512x4096.size 1)) :
    h.lift (ix1 t) k = ix2 t (⟨k.val, k.isLt⟩ : Fin 4096) := by
  funext c; apply Fin.ext
  fin_cases c <;> rfl

/-- The row maximum, spread over the row. -/
theorem rowmax_apply {m : ℕ} (S : FVec Ideal S512x4096 .f32) (h : S512x4096.Reduces [1] S512) (hφ : FKind.Formats .f32)
    (hacc : (0xFF800000#32 : BitVec 32) = FKind.maximumf.neutral .f32 hφ)
    (h1 : S512.ShapeCasts S512x1) (h2 : S512x1.Broadcasts ⟨2, ![512, m]⟩) (t : Fin 512) (s : Fin m) :
    broadcastTo ⟨2, ![512, m]⟩ (shapeCast S512x1 (multiReduction .maximumf [1] S512 S 0xFF800000#32 h hφ hacc) h1) h2 (ix2 t s)
      = (Finset.univ : Finset (Fin 4096)).fold max ⊥ (fun s' => S (ix2 t s')) := by
  rw [column_spread_apply, Ideal.multiReduction_maximumf_single]
  show (Finset.univ : Finset (Fin 4096)).fold max (Ideal.ofBits .f32 0xFF800000#32) (S ∘ h.lift (ix1 t)) = _
  rw [negInf_eq]
  exact congrArg (fun f => Finset.fold max (⊥ : EReal) f (Finset.univ : Finset (Fin 4096))) (funext fun k => congrArg S (lift_row h t k))

/-- The row total, spread over the row. -/
theorem rowsum_apply {m : ℕ} (S : FVec Ideal S512x4096 .f32) (h : S512x4096.Reduces [1] S512) (hφ : FKind.Formats .f32)
    (hacc : (0x00000000#32 : BitVec 32) = FKind.add.neutral .f32 hφ)
    (h1 : S512.ShapeCasts S512x1) (h2 : S512x1.Broadcasts ⟨2, ![512, m]⟩) (t : Fin 512) (s : Fin m) :
    broadcastTo ⟨2, ![512, m]⟩ (shapeCast S512x1 (multiReduction .add [1] S512 S 0x00000000#32 h hφ hacc) h1) h2 (ix2 t s)
      = ∑ s' : Fin 4096, S (ix2 t s') := by
  rw [column_spread_apply, Ideal.multiReduction_add_single]
  exact Finset.sum_congr rfl fun k _ => congrArg S (lift_row h t k)

/-! ## The two matrix products at an index -/

theorem lhs_scores_0 (i : S512x4096.Idx) (q : dot_S128x512_S128x4096_S512x4096_0_0_1_1_n_n.contr.Idx) :
    (dot_S128x512_S128x4096_S512x4096_0_0_1_1_n_n.lhsIdx i q 0).val = (q ⟨0, by decide⟩).val :=
  dot_S128x512_S128x4096_S512x4096_0_0_1_1_n_n.lhsIdx_val_of_single rfl i q
theorem lhs_scores_1 (i : S512x4096.Idx) (q : dot_S128x512_S128x4096_S512x4096_0_0_1_1_n_n.contr.Idx) :
    (dot_S128x512_S128x4096_S512x4096_0_0_1_1_n_n.lhsIdx i q 1).val = (i 0).val := by
  unfold DotDims.lhsIdx
  rw [dif_neg (show ¬(1 : Fin S128x512.rank) ∈ dot_S128x512_S128x4096_S512x4096_0_0_1_1_n_n.lhsBatch by decide), dif_pos (show (1 : Fin S128x512.rank) ∈ dot_S128x512_S128x4096_S512x4096_0_0_1_1_n_n.lhsNonContracting by decide)]
  rfl
theorem rhs_scores_0 (i : S512x4096.Idx) (q : dot_S128x512_S128x4096_S512x4096_0_0_1_1_n_n.contr.Idx) :
    (dot_S128x512_S128x4096_S512x4096_0_0_1_1_n_n.rhsIdx i q 0).val = (q ⟨0, by decide⟩).val :=
  dot_S128x512_S128x4096_S512x4096_0_0_1_1_n_n.rhsIdx_val_of_single rfl i q
theorem rhs_scores_1 (i : S512x4096.Idx) (q : dot_S128x512_S128x4096_S512x4096_0_0_1_1_n_n.contr.Idx) :
    (dot_S128x512_S128x4096_S512x4096_0_0_1_1_n_n.rhsIdx i q 1).val = (i 1).val := by
  unfold DotDims.rhsIdx
  rw [dif_neg (show ¬(1 : Fin S128x4096.rank) ∈ dot_S128x512_S128x4096_S512x4096_0_0_1_1_n_n.rhsBatch by decide), dif_pos (show (1 : Fin S128x4096.rank) ∈ dot_S128x512_S128x4096_S512x4096_0_0_1_1_n_n.rhsNonContracting by decide)]
  rfl

/-- The raw score: queries and keys contracted over the 128 channels. -/
theorem scores_product_apply (qb : Vec Ideal S1x128x512 .bf16) (kb : Vec Ideal S1x128x4096 .bf16) (t : Fin 512) (s : Fin 4096) :
    matmul (F := Ideal) dot_S128x512_S128x4096_S512x4096_0_0_1_1_n_n none
        (shapeCast S128x512 qb shapeCasts_S1x128x512_S128x512 : FVec Ideal S128x512 .bf16)
        (shapeCast S128x4096 kb shapeCasts_S1x128x4096_S128x4096 : FVec Ideal S128x4096 .bf16) (constant S512x4096 .f32 0x00000000#32) (ix2 t s)
      = ∑ c : Fin 128, qb (ix3 (0 : Fin 1) c t) * kb (ix3 (0 : Fin 1) c s) := by
  simp only [matmul]
  rw [Ideal.matmul_constant_zero_apply, ← Equiv.sum_comp (ValueIdx.contrEquiv1 dot_S128x512_S128x4096_S512x4096_0_0_1_1_n_n 128 rfl rfl).symm]
  refine Finset.sum_congr rfl fun c _ => ?_
  have hk := ValueIdx.contrEquiv1_symm_val dot_S128x512_S128x4096_S512x4096_0_0_1_1_n_n 128 rfl rfl c
  have el : dot_S128x512_S128x4096_S512x4096_0_0_1_1_n_n.lhsIdx (ix2 t s) ((ValueIdx.contrEquiv1 dot_S128x512_S128x4096_S512x4096_0_0_1_1_n_n 128 rfl rfl).symm c) = ix2 c t := funext fun a => Fin.ext (by
    match a with
    | ⟨0, _⟩ => exact (lhs_scores_0 _ _).trans hk
    | ⟨1, _⟩ => exact lhs_scores_1 _ _)
  have er : dot_S128x512_S128x4096_S512x4096_0_0_1_1_n_n.rhsIdx (ix2 t s) ((ValueIdx.contrEquiv1 dot_S128x512_S128x4096_S512x4096_0_0_1_1_n_n 128 rfl rfl).symm c) = ix2 c s := funext fun a => Fin.ext (by
    match a with
    | ⟨0, _⟩ => exact (rhs_scores_0 _ _).trans hk
    | ⟨1, _⟩ => exact rhs_scores_1 _ _)
  rw [el, er, shapeCast_1ab_ab_apply, shapeCast_1ab_ab_apply]

theorem lhs_mix_0 (i : S512x128.Idx) (q : dot_S512x4096_S128x4096_S512x128_1_1_0_0_n_n.contr.Idx) :
    (dot_S512x4096_S128x4096_S512x128_1_1_0_0_n_n.lhsIdx i q 0).val = (i 0).val := by
  unfold DotDims.lhsIdx
  rw [dif_neg (show ¬(0 : Fin S512x4096.rank) ∈ dot_S512x4096_S128x4096_S512x128_1_1_0_0_n_n.lhsBatch by decide), dif_pos (show (0 : Fin S512x4096.rank) ∈ dot_S512x4096_S128x4096_S512x128_1_1_0_0_n_n.lhsNonContracting by decide)]
  rfl
theorem lhs_mix_1 (i : S512x128.Idx) (q : dot_S512x4096_S128x4096_S512x128_1_1_0_0_n_n.contr.Idx) :
    (dot_S512x4096_S128x4096_S512x128_1_1_0_0_n_n.lhsIdx i q 1).val = (q ⟨0, by decide⟩).val :=
  dot_S512x4096_S128x4096_S512x128_1_1_0_0_n_n.lhsIdx_val_of_single rfl i q
theorem rhs_mix_0 (i : S512x128.Idx) (q : dot_S512x4096_S128x4096_S512x128_1_1_0_0_n_n.contr.Idx) :
    (dot_S512x4096_S128x4096_S512x128_1_1_0_0_n_n.rhsIdx i q 0).val = (i 1).val := by
  unfold DotDims.rhsIdx
  rw [dif_neg (show ¬(0 : Fin S128x4096.rank) ∈ dot_S512x4096_S128x4096_S512x128_1_1_0_0_n_n.rhsBatch by decide), dif_pos (show (0 : Fin S128x4096.rank) ∈ dot_S512x4096_S128x4096_S512x128_1_1_0_0_n_n.rhsNonContracting by decide)]
  rfl
theorem rhs_mix_1 (i : S512x128.Idx) (q : dot_S512x4096_S128x4096_S512x128_1_1_0_0_n_n.contr.Idx) :
    (dot_S512x4096_S128x4096_S512x128_1_1_0_0_n_n.rhsIdx i q 1).val = (q ⟨0, by decide⟩).val :=
  dot_S512x4096_S128x4096_S512x128_1_1_0_0_n_n.rhsIdx_val_of_single rfl i q

/-- The weighted sum: weights and values contracted over the 4096 key positions. -/
theorem mix_product_apply (W : FVec Ideal S512x4096 .bf16) (vb : Vec Ideal S1x128x4096 .bf16) (t : Fin 512) (e : Fin 128) :
    matmul (F := Ideal) dot_S512x4096_S128x4096_S512x128_1_1_0_0_n_n none W
        (shapeCast S128x4096 vb shapeCasts_S1x128x4096_S128x4096 : FVec Ideal S128x4096 .bf16) (constant S512x128 .f32 0x00000000#32) (ix2 t e)
      = ∑ s : Fin 4096, W (ix2 t s) * vb (ix3 (0 : Fin 1) e s) := by
  simp only [matmul]
  rw [Ideal.matmul_constant_zero_apply, ← Equiv.sum_comp (ValueIdx.contrEquiv1 dot_S512x4096_S128x4096_S512x128_1_1_0_0_n_n 4096 rfl rfl).symm]
  refine Finset.sum_congr rfl fun s _ => ?_
  have hk := ValueIdx.contrEquiv1_symm_val dot_S512x4096_S128x4096_S512x128_1_1_0_0_n_n 4096 rfl rfl s
  have el : dot_S512x4096_S128x4096_S512x128_1_1_0_0_n_n.lhsIdx (ix2 t e) ((ValueIdx.contrEquiv1 dot_S512x4096_S128x4096_S512x128_1_1_0_0_n_n 4096 rfl rfl).symm s) = ix2 t s := funext fun a => Fin.ext (by
    match a with
    | ⟨0, _⟩ => exact lhs_mix_0 _ _
    | ⟨1, _⟩ => exact (lhs_mix_1 _ _).trans hk)
  have er : dot_S512x4096_S128x4096_S512x128_1_1_0_0_n_n.rhsIdx (ix2 t e) ((ValueIdx.contrEquiv1 dot_S512x4096_S128x4096_S512x128_1_1_0_0_n_n 4096 rfl rfl).symm s) = ix2 e s := funext fun a => Fin.ext (by
    match a with
    | ⟨0, _⟩ => exact rhs_mix_0 _ _
    | ⟨1, _⟩ => exact (rhs_mix_1 _ _).trans hk)
  rw [el, er, shapeCast_1ab_ab_apply]

/-! ## The body's result -/

/-- A block's scaled score of query position `t` against key position `s`. -/
def scoreB (qb : Vec Ideal S1x128x512 .bf16) (kb : Vec Ideal S1x128x4096 .bf16) (t : Fin 512) (s : Fin 4096) : EReal :=
  (∑ c : Fin 128, qb (ix3 (0 : Fin 1) c t) * kb (ix3 (0 : Fin 1) c s)) * Cert.Attn.scale

/-- A block's unnormalised weight: the exponential of the score less the row's largest score. -/
def weightB (qb : Vec Ideal S1x128x512 .bf16) (kb : Vec Ideal S1x128x4096 .bf16) (t : Fin 512) (s : Fin 4096) : EReal :=
  Ideal.exp (scoreB qb kb t s - (Finset.univ : Finset (Fin 4096)).fold max ⊥ (fun s' => scoreB qb kb t s'))

/-- The block of scaled scores as the body forms it. -/
abbrev scoresV (qb : Vec Ideal S1x128x512 .bf16) (kb : Vec Ideal S1x128x4096 .bf16) : FVec Ideal S512x4096 .f32 :=
  mulf (matmul (F := Ideal) dot_S128x512_S128x4096_S512x4096_0_0_1_1_n_n none
      (shapeCast S128x512 qb shapeCasts_S1x128x512_S128x512 : FVec Ideal S128x512 .bf16)
      (shapeCast S128x4096 kb shapeCasts_S1x128x4096_S128x4096 : FVec Ideal S128x4096 .bf16) (constant S512x4096 .f32 0x00000000#32))
    (broadcast S512x4096 (Named.named (F := Ideal) κ "inv_sqrt_c" (φ := .f32) 0x3DB504F3#32))

theorem scoresV_apply (qb : Vec Ideal S1x128x512 .bf16) (kb : Vec Ideal S1x128x4096 .bf16) (t : Fin 512) (s : Fin 4096) :
    scoresV qb kb (ix2 t s) = scoreB qb kb t s := by
  show _ * _ = _
  rw [scores_product_apply, broadcast_apply, scale_eq]
  rfl

/-- The exponentials of the scores less the row maximum are the weights. -/
theorem weight_apply (qb : Vec Ideal S1x128x512 .bf16) (kb : Vec Ideal S1x128x4096 .bf16)
    (h : S512x4096.Reduces [1] S512) (hφ : FKind.Formats .f32) (hacc : (0xFF800000#32 : BitVec 32) = FKind.maximumf.neutral .f32 hφ)
    (h1 : S512.ShapeCasts S512x1) (h2 : S512x1.Broadcasts S512x4096) (t : Fin 512) (s : Fin 4096) :
    exp (subf (scoresV qb kb) (broadcastTo S512x4096 (shapeCast S512x1 (multiReduction .maximumf [1] S512 (scoresV qb kb) 0xFF800000#32 h hφ hacc) h1) h2)) (ix2 t s)
      = weightB qb kb t s := by
  show Ideal.exp (scoresV qb kb (ix2 t s) - broadcastTo S512x4096 (shapeCast S512x1 (multiReduction .maximumf [1] S512 (scoresV qb kb) 0xFF800000#32 h hφ hacc) h1) h2 (ix2 t s)) = _
  rw [rowmax_apply, scoresV_apply]
  unfold weightB
  exact congrArg (fun f => Ideal.exp (scoreB qb kb t s - Finset.fold max (⊥ : EReal) f (Finset.univ : Finset (Fin 4096))))
    (funext fun s' => scoresV_apply qb kb t s')

/-- The body's result at channel `e` and position `t` of the block. -/
theorem pay_apply (qb : Vec Ideal S1x128x512 .bf16) (kb vb : Vec Ideal S1x128x4096 .bf16) (e : Fin 128) (t : Fin 512) :
    k0_pay1 (F := Ideal) qb kb vb (ix3 (0 : Fin 1) e t)
      = Ideal.div (∑ s : Fin 4096, weightB qb kb t s * vb (ix3 (0 : Fin 1) e s)) (∑ s : Fin 4096, weightB qb kb t s) := by
  unfold k0_pay1
  dsimp only
  rw [shapeCast_ab_1ab_apply, transpose_ix2_apply, divf_apply, mix_product_apply]
  refine congrArg₂ Ideal.div (Finset.sum_congr rfl fun s _ => ?_) ?_
  · exact congrArg (· * vb (ix3 (0 : Fin 1) e s)) (weight_apply qb kb _ _ _ _ _ t s)
  · refine (rowsum_apply _ _ _ _ _ _ t e).trans (Finset.sum_congr rfl fun s _ => ?_)
    exact weight_apply qb kb _ _ _ _ _ t s

end Cert.KernelIdeal.Hand

end
-- ==== Proof.KernelValue.lean ====
/-
  What the kernel's result array holds after the run: attention of the three flattened arrays.
  Grid point (b, qi) writes positions 512 qi .. 512 qi + 511 of batch b, all 128 channels; its query block is the
  same positions of batch b, its key and value blocks the whole of batch b. The 32 blocks tile the result.
-/
import proofs.«429234_j68083821576702_3_alg».proof.Proof.Gen.KernelIdeal.Frame
import proofs.«429234_j68083821576702_3_alg».proof.Proof.Payload
import Idealize.ShloMosaic.Lib.Pipeline.Value
import Idealize.ShloMosaic.Lib.StableHlo.Run
import Idealize.ShloMosaic.Lib.Tactic

set_option maxRecDepth 16384

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## The flattened arrays the region finds -/

/-- The keys, flattened over the two spatial axes (a change of float format is the identity here). -/
abbrev karr (c : Dev nD) : S4x128x4096.Idx → EReal :=
  shapeCast S4x128x4096 (m ((c : Thread nD τ).loc main_arg0)) shapeCasts_S4x128x64x64_S4x128x4096
/-- The queries, flattened. -/
abbrev qarr (c : Dev nD) : S4x128x4096.Idx → EReal :=
  shapeCast S4x128x4096 (m ((c : Thread nD τ).loc main_arg1)) shapeCasts_S4x128x64x64_S4x128x4096
/-- The values, flattened. -/
abbrev varr (c : Dev nD) : S4x128x4096.Idx → EReal :=
  shapeCast S4x128x4096 (m ((c : Thread nD τ).loc main_arg2)) shapeCasts_S4x128x64x64_S4x128x4096

theorem V_keys (c : Dev nD) : (V m c main_v1 : S4x128x4096.Idx → EReal) = karr m c := by
  show StableHlo.after hostOps0 (fun b => m (c, b)) (Proc.devRef .tc main_v1) = _
  after_results
  rfl
theorem V_queries (c : Dev nD) : (V m c main_v3 : S4x128x4096.Idx → EReal) = qarr m c := by
  show StableHlo.after hostOps0 (fun b => m (c, b)) (Proc.devRef .tc main_v3) = _
  after_results
  rfl
theorem V_values (c : Dev nD) : (V m c main_v5 : S4x128x4096.Idx → EReal) = varr m c := by
  show StableHlo.after hostOps0 (fun b => m (c, b)) (Proc.devRef .tc main_v5) = _
  after_results
  rfl

/-! ## The index maps, decided over the 32 grid points -/

theorem idx_facts : ∀ t : Fin cfg0.N,
    win0_0.index t (0 : Fin 3) = win0_3.index t (0 : Fin 3) ∧ win0_0.index t (1 : Fin 3) = 0
    ∧ win0_0.index t (2 : Fin 3) = win0_3.index t (2 : Fin 3)
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 3 ∧ win0_3.index t (1 : Fin 3) = 0 ∧ win0_3.index t (2 : Fin 3) ≤ 7 :=
  (by decide +kernel : ∀ t : Fin grid0.N, _)

/-- Every (batch, tile) pair is some point's. -/
theorem idx_onto : ∀ (b : Fin 4) (qi : Fin 8), ∃ t : Fin cfg0.N, win0_3.index t = ![b.val, 0, qi.val] :=
  (by decide +kernel : ∀ (b : Fin 4) (qi : Fin 8), ∃ t : Fin grid0.N, win0_3.index t = ![b.val, 0, qi.val])

/-! ## The blocks a point reads -/

/-- The query block of point `t`. -/
abbrev qblk (c : Dev nD) (t : Fin cfg0.N) : Vec Ideal S1x128x512 .bf16 := iblk m c 0 t
/-- The key block of point `t`. -/
abbrev kblk (c : Dev nD) (t : Fin cfg0.N) : Vec Ideal S1x128x4096 .bf16 := iblk m c 1 t
/-- The value block of point `t`. -/
abbrev vblk (c : Dev nD) (t : Fin cfg0.N) : Vec Ideal S1x128x4096 .bf16 := iblk m c 2 t

/-- The query block holds the point's batch and the point's 512 positions of the flattened queries. -/
theorem qblk_apply (c : Dev nD) (t : Fin cfg0.N) (u : Fin 1) (a : Fin 128) (x : Fin 512) (i : S4x128x4096.Idx)
    (h0 : (i 0).val = win0_3.index t (0 : Fin 3)) (h1 : (i 1).val = a.val)
    (h2 : (i 2).val = win0_3.index t (2 : Fin 3) * 512 + x.val) :
    qblk m c t (ix3 u a x) = qarr m c i := by
  obtain ⟨e0, e1, e2, -⟩ := idx_facts t
  rw [← V_queries]
  unfold qblk iblk
  rw [View.read_apply]
  show V m c main_v3 _ = V m c main_v3 _
  congr 1
  funext d
  apply Fin.ext
  have hu : u.val = 0 := by omega
  match d with
  | ⟨0, _⟩ => show win0_0.index t (0 : Fin 3) * 1 + 1 * u.val = (i 0).val; omega
  | ⟨1, _⟩ => show win0_0.index t (1 : Fin 3) * 128 + 1 * a.val = (i 1).val; omega
  | ⟨2, _⟩ => show win0_0.index t (2 : Fin 3) * 512 + 1 * x.val = (i 2).val; omega

/-- The key block holds the whole of the point's batch of the flattened keys. -/
theorem kblk_apply (c : Dev nD) (t : Fin cfg0.N) (u : Fin 1) (a : Fin 128) (x : Fin 4096) (i : S4x128x4096.Idx)
    (h0 : (i 0).val = win0_3.index t (0 : Fin 3)) (h1 : (i 1).val = a.val) (h2 : (i 2).val = x.val) :
    kblk m c t (ix3 u a x) = karr m c i := by
  obtain ⟨-, -, -, e0, e1, e2, -⟩ := idx_facts t
  rw [← V_keys]
  unfold kblk iblk
  rw [View.read_apply]
  show V m c main_v1 _ = V m c main_v1 _
  congr 1
  funext d
  apply Fin.ext
  have hu : u.val = 0 := by omega
  match d with
  | ⟨0, _⟩ => show win0_1.index t (0 : Fin 3) * 1 + 1 * u.val = (i 0).val; omega
  | ⟨1, _⟩ => show win0_1.index t (1 : Fin 3) * 128 + 1 * a.val = (i 1).val; omega
  | ⟨2, _⟩ => show win0_1.index t (2 : Fin 3) * 4096 + 1 * x.val = (i 2).val; omega

/-- The value block holds the whole of the point's batch of the flattened values. -/
theorem vblk_apply (c : Dev nD) (t : Fin cfg0.N) (u : Fin 1) (a : Fin 128) (x : Fin 4096) (i : S4x128x4096.Idx)
    (h0 : (i 0).val = win0_3.index t (0 : Fin 3)) (h1 : (i 1).val = a.val) (h2 : (i 2).val = x.val) :
    vblk m c t (ix3 u a x) = varr m c i := by
  obtain ⟨-, -, -, -, -, -, e0, e1, e2, -⟩ := idx_facts t
  rw [← V_values]
  unfold vblk iblk
  rw [View.read_apply]
  show V m c main_v5 _ = V m c main_v5 _
  congr 1
  funext d
  apply Fin.ext
  have hu : u.val = 0 := by omega
  match d with
  | ⟨0, _⟩ => show win0_2.index t (0 : Fin 3) * 1 + 1 * u.val = (i 0).val; omega
  | ⟨1, _⟩ => show win0_2.index t (1 : Fin 3) * 128 + 1 * a.val = (i 1).val; omega
  | ⟨2, _⟩ => show win0_2.index t (2 : Fin 3) * 4096 + 1 * x.val = (i 2).val; omega

/-! ## What a point writes back -/

/-- The result array: attention of the flattened keys, queries and values. -/
abbrev result (c : Dev nD) : S4x128x4096.Idx → EReal := Cert.Attn.attn (karr m c) (qarr m c) (varr m c)

/-- Over its blocks, a point's result at channel `e` and block position `x` is attention at the point's batch and at
    position 512 qi + x. -/
theorem block_attn (c : Dev nD) (t : Fin cfg0.N) (e : Fin 128) (x : Fin 512) (n : Fin 4) (p : Fin 4096)
    (hn : n.val = win0_3.index t (0 : Fin 3)) (hp : p.val = win0_3.index t (2 : Fin 3) * 512 + x.val) :
    Ideal.div (∑ s : Fin 4096, weightB (qblk m c t) (kblk m c t) x s * vblk m c t (ix3 (0 : Fin 1) e s))
        (∑ s : Fin 4096, weightB (qblk m c t) (kblk m c t) x s)
      = Cert.Attn.attnAt (karr m c) (qarr m c) (varr m c) n e p := by
  have hs : ∀ s : Fin 4096, scoreB (qblk m c t) (kblk m c t) x s = Cert.Attn.score (karr m c) (qarr m c) n p s := fun s => by
    unfold scoreB Cert.Attn.score
    refine congrArg (· * Cert.Attn.scale) (Finset.sum_congr rfl fun ch _ => ?_)
    rw [qblk_apply m c t 0 ch x (ix3 n ch p) hn rfl hp, kblk_apply m c t 0 ch s (ix3 n ch s) hn rfl rfl]
  have hw : ∀ s : Fin 4096, weightB (qblk m c t) (kblk m c t) x s = Cert.Attn.weight (karr m c) (qarr m c) n p s := fun s => by
    unfold weightB Cert.Attn.weight Cert.Attn.rowMax
    rw [hs s]
    exact congrArg (fun f => Ideal.exp (Cert.Attn.score (karr m c) (qarr m c) n p s - Finset.fold max (⊥ : EReal) f (Finset.univ : Finset (Fin 4096))))
      (funext fun s' => hs s')
  unfold Cert.Attn.attnAt
  refine congrArg₂ Ideal.div (Finset.sum_congr rfl fun s _ => ?_) (Finset.sum_congr rfl fun s _ => hw s)
  rw [hw s, vblk_apply m c t 0 e s (ix3 n e s) hn rfl rfl]

theorem hz : (![0, 0, 0] : Fin 3 → Nat) = fun _ => 0 := funext fun a => by fin_cases a <;> rfl

/-- What point `t` writes back is block `t` of the result array. -/
theorem flushed_eq (c : Dev nD) (t : Fin cfg0.N) :
    (dats m 0 c).flushed 3 t = ((cfg0.win 3).blk t).view.read (Elt Ideal) (result m c) := by
  show (cfg0.win 3).cut (grid0.coords t) ((dats m 0 c).after 3 t) = _
  rw [after0_3]
  unfold out0_3
  rw [View.canon_unit_zero hz]
  simp only [View.ld_unit_zero (S := S1x128x512) hz, View.ld_unit_zero (S := S1x128x4096) hz]
  obtain ⟨-, -, -, -, -, -, -, -, -, -, e1, -⟩ := idx_facts t
  funext j
  obtain ⟨u, e, x, rfl⟩ : ∃ (u : Fin 1) (e : Fin 128) (x : Fin 512), j = ix3 u e x := ⟨j 0, j 1, j 2, eq_ix3 j⟩
  obtain rfl : u = 0 := Fin.ext (by omega)
  rw [View.read_apply]
  refine (pay_apply (qblk m c t) (kblk m c t) (vblk m c t) e x).trans ?_
  have h0 : ((((cfg0.win 3).blk t).view.emb (ix3 (0 : Fin 1) e x)) 0).val = win0_3.index t (0 : Fin 3) := by
    show win0_3.index t (0 : Fin 3) * 1 + 1 * 0 = _; omega
  have h1 : (((cfg0.win 3).blk t).view.emb (ix3 (0 : Fin 1) e x)) 1 = e := Fin.ext (by
    show win0_3.index t (1 : Fin 3) * 128 + 1 * e.val = _; omega)
  have h2 : ((((cfg0.win 3).blk t).view.emb (ix3 (0 : Fin 1) e x)) 2).val = win0_3.index t (2 : Fin 3) * 512 + x.val := by
    show win0_3.index t (2 : Fin 3) * 512 + 1 * x.val = _; omega
  show _ = Cert.Attn.attnAt (karr m c) (qarr m c) (varr m c) ((((cfg0.win 3).blk t).view.emb (ix3 (0 : Fin 1) e x)) 0)
    ((((cfg0.win 3).blk t).view.emb (ix3 (0 : Fin 1) e x)) 1) ((((cfg0.win 3).blk t).view.emb (ix3 (0 : Fin 1) e x)) 2)
  rw [h1]
  exact block_attn m c t e x _ _ h0 h2

/-! ## The blocks tile the result -/

theorem mem_blk (t : Fin cfg0.N) (i : S4x128x4096.Idx) :
    i ∈ ((cfg0.win 3).blk t).view.set ↔ ∀ a : Fin 3, win0_3.index t a * S1x128x512.size a ≤ (i a).val ∧ (i a).val < win0_3.index t a * S1x128x512.size a + S1x128x512.size a := by
  show i ∈ ((View.whole main_v6).slice (win0_3.rect t)).set ↔ _
  rw [View.set_slice_whole, Rect.mem_set_unit]
  exact Iff.rfl

/-- Position p of batch b lies in the block of the point (b, p / 512). -/
theorem cover (i : S4x128x4096.Idx) : ∃ t : Fin cfg0.N, (cfg0.win 3).flush t = true ∧ i ∈ ((cfg0.win 3).blk t).view.set := by
  have hi0 : (i 0).val < 4 := (i 0).isLt
  have hi1 : (i 1).val < 128 := (i 1).isLt
  have hi2 : (i 2).val < 4096 := (i 2).isLt
  obtain ⟨t, ht⟩ := idx_onto ⟨(i 0).val, hi0⟩ ⟨(i 2).val / 512, by omega⟩
  have q0 : win0_3.index t (0 : Fin 3) = (i 0).val := congrFun ht 0
  have q1 : win0_3.index t (1 : Fin 3) = 0 := congrFun ht 1
  have q2 : win0_3.index t (2 : Fin 3) = (i 2).val / 512 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 128 ≤ (i 1).val ∧ (i 1).val < win0_3.index t (1 : Fin 3) * 128 + 128; omega
  | ⟨2, _⟩ => show win0_3.index t (2 : Fin 3) * 512 ≤ (i 2).val ∧ (i 2).val < win0_3.index t (2 : Fin 3) * 512 + 512; omega

/-- The kernel's output array after the run is the result array. -/
theorem final (c : Dev nD) : (dats m 0 c).arrAt 3 cfg0.N = result m c :=
  (dats m 0 c).arrAt_eq_of_cover 3 (result m c) (fun t _ => flushed_eq m c t) cover

/-! ## The run -/

/-- The last host operation unflattens the result array. -/
theorem tail_eq (c : Dev nD) :
    Pipeline.afterTail₀ cfgs (dats m) 0 (V0 m) [hostOps1] c main_v7
      = shapeCast S4x128x64x64 (result m c) shapeCasts_S4x128x4096_S4x128x64x64 := by
  unfold Pipeline.afterTail₀
  show StableHlo.after hostOps1 _ (Proc.devRef .tc main_v7) = _
  after_results
  exact congrArg (fun a => shapeCast S4x128x64x64 a shapeCasts_S4x128x4096_S4x128x64x64)
    ((Pipeline.withArrays_arr spec0 launch0.win.arr_inj c (V0 m c) (fun w => (dats m 0 c).arrAt w (cfgs 0).N) 3).trans (final m c))

/-- Every weakly fair execution of the kernel's program ends with the unflattened attention of the flattened
    arguments in its result, and the arguments unchanged. -/
theorem run : θ_run defs (onTc (τ := τ) (main (F := Ideal))) ⟨m, fun _ => 0, ρ⟩ fun r => ∀ c : Dev nD,
      r.2.mem ((c.tc : Thread nD τ).loc main_v7) = shapeCast S4x128x64x64 (result m c) shapeCasts_S4x128x4096_S4x128x64x64
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Hand

end
-- ==== Proof.RefValue.lean ====
/-
  The reference, read at an index: its flattened result is the second form of attention (`Cert.Attn.attnR`) of the
  three flattened arguments — scores divided by D, the row maximum folded from minus infinity, the exponentials
  normalised by the row total, then the weighted sum of the values.
-/
import proofs.«429234_j68083821576702_3_alg».proof.Proof.Gen.ReferenceIdeal.Read
import proofs.«429234_j68083821576702_3_alg».proof.Proof.Spec
import Idealize.ShloMosaic.Lib.ValueIdx
import Idealize.ShloMosaic.PureOps.Ideal.Laws
import Idealize.ShloMosaic.PureOps.Reduce

noncomputable section

namespace Cert.ReferenceIdeal.Hand

open Cert.ReferenceIdeal Cert.ReferenceIdeal.Gen Cert.ReferenceIdeal.Read Idealize.ShloMosaic Idealize.ShloMosaic.ValueIdx
open Cert.Attn

variable (x0 x1 x2 : (⟨S4x128x64x64, .f32⟩ : BufTy).Contents (Elt Ideal))

/-- The flattened keys, queries and values. -/
abbrev kf : A3.Idx → EReal := val_main_v0 (F := Ideal) x0
abbrev qf : A3.Idx → EReal := val_main_v1 (F := Ideal) x1
abbrev vf : A3.Idx → EReal := val_main_v2 (F := Ideal) x2

/-- The scaled score of key position `s` against query position `t`. -/
theorem score_apply (n : Fin 4) (s t : Fin 4096) :
    val_main_v5 (F := Ideal) x0 x1 (ix3 n s t) = scoreR (kf x0) (qf x1) n s t := by
  rw [val_main_v5_apply, val_main_v3_apply, val_main_v4_apply, val_main_cst_apply]
  show Ideal.div _ _ = _
  unfold scoreR
  refine congrArg₂ Ideal.div (Finset.sum_congr rfl fun c _ => ?_) rfl
  have el : lidx_main_v3 (ix3 n s t) c = ix3 n c s := funext fun a => Fin.ext (by
    match a with | ⟨0, _⟩ => rfl | ⟨1, _⟩ => rfl | ⟨2, _⟩ => rfl)
  have er : ridx_main_v3 (ix3 n s t) c = ix3 n c t := funext fun a => Fin.ext (by
    match a with | ⟨0, _⟩ => rfl | ⟨1, _⟩ => rfl | ⟨2, _⟩ => rfl)
  rw [el, er]

/-- The index over (n, t) with key position `k` put back. -/
theorem lift_key (h : S4x4096x4096.Reduces [1] S4x4096) (n : Fin 4) (t : Fin 4096) (k : Fin (S4x4096x4096.size 1)) :
    h.lift (ix2 n t) k = ix3 n (⟨k.val, k.isLt⟩ : Fin 4096) t := by
  funext c; apply Fin.ext
  fin_cases c <;> rfl

/-- The row maximum. -/
theorem rowMax_apply (n : Fin 4) (t : Fin 4096) :
    val_main_v8 (F := Ideal) x0 x1 (ix2 n t) = rowMaxR (kf x0) (qf x1) n t := by
  have h : S4x4096x4096.Reduces [1] S4x4096 := by decide
  rw [val_main_v8_apply, val_main_v7_apply, val_main_cst_1_apply]
  unfold val_main_v6
  rw [Host.reduce_eq_fold_single FloatOps.maximumf _ _ reducesTo_S4x4096x4096_S4x4096_d1 h h_S_]
  unfold rowMaxR
  show max negInf (Finset.fold max negInf _ _) = _
  exact congrArg (fun f => max negInf (Finset.fold max negInf f (Finset.univ : Finset (Fin 4096))))
    (funext fun k => (congrArg (val_main_v5 (F := Ideal) x0 x1) (lift_key h n t k)).trans (score_apply x0 x1 n _ t))

/-- The exponential of the score less the row maximum. -/
theorem weight_apply (n : Fin 4) (s t : Fin 4096) :
    val_main_v12 (F := Ideal) x0 x1 (ix3 n s t) = weightR (kf x0) (qf x1) n s t := by
  rw [val_main_v12_apply, val_main_v11_apply, val_main_v10_apply, val_main_v9_apply, score_apply]
  have e : idx_main_v9 (idx_main_v10 (ix3 n s t)) = ix2 n t := funext fun a => Fin.ext (by
    match a with | ⟨0, _⟩ => rfl | ⟨1, _⟩ => rfl)
  rw [e, rowMax_apply]
  rfl

/-- The row total. -/
theorem total_apply (n : Fin 4) (t : Fin 4096) :
    val_main_v13 (F := Ideal) x0 x1 (ix2 n t)
      = Ideal.ofBits .f32 0x00000000#32 + ∑ s' : Fin 4096, weightR (kf x0) (qf x1) n s' t := by
  rw [val_main_v13_apply, val_main_cst_2_apply]
  refine congrArg₂ (· + ·) rfl (Finset.sum_congr rfl fun k _ => ?_)
  have e : idx_main_v13 (ix2 n t) k = ix3 n k t := funext fun a => Fin.ext (by
    match a with | ⟨0, _⟩ => rfl | ⟨1, _⟩ => rfl | ⟨2, _⟩ => rfl)
  rw [e, weight_apply]

/-- The normalised weight. -/
theorem softmax_apply (n : Fin 4) (s t : Fin 4096) :
    val_main_v16 (F := Ideal) x0 x1 (ix3 n s t)
      = Ideal.div (weightR (kf x0) (qf x1) n s t) (Ideal.ofBits .f32 0x00000000#32 + ∑ s' : Fin 4096, weightR (kf x0) (qf x1) n s' t) := by
  rw [val_main_v16_apply, val_main_v15_apply, val_main_v14_apply, weight_apply]
  have e : idx_main_v14 (idx_main_v15 (ix3 n s t)) = ix2 n t := funext fun a => Fin.ext (by
    match a with | ⟨0, _⟩ => rfl | ⟨1, _⟩ => rfl)
  rw [e, total_apply]
  rfl

/-- The reference's flattened result is the second form of attention. -/
theorem ref_eq_attnR : val_main_v17 (F := Ideal) x0 x1 x2 = attnR (kf x0) (qf x1) (vf x2) := by
  funext i
  obtain ⟨n, e, t, rfl⟩ : ∃ (n : Fin 4) (e : Fin 128) (t : Fin 4096), i = ix3 n e t := ⟨i 0, i 1, i 2, eq_ix3 i⟩
  rw [val_main_v17_apply]
  show _ = attnRAt (kf x0) (qf x1) (vf x2) n e t
  unfold attnRAt
  refine Finset.sum_congr rfl fun s _ => ?_
  have el : lidx_main_v17 (ix3 n e t) s = ix3 n e s := funext fun a => Fin.ext (by
    match a with | ⟨0, _⟩ => rfl | ⟨1, _⟩ => rfl | ⟨2, _⟩ => rfl)
  have er : ridx_main_v17 (ix3 n e t) s = ix3 n s t := funext fun a => Fin.ext (by
    match a with | ⟨0, _⟩ => rfl | ⟨1, _⟩ => rfl | ⟨2, _⟩ => rfl)
  rw [el, er, softmax_apply]

end Cert.ReferenceIdeal.Hand

end
-- ==== Proof.Algebra.lean ====
/-
  The two spellings of single-head attention agree on arrays of real entries.

  For real entries every score is a real number, so every quantity met below is the image of a real
  and the identity is one about finite sums of reals:
    sum_s v s * (p s / L) = (sum_s p s * v s) / L        with p s = exp (x s - mu) > 0 and L = sum_s p s > 0.
  The remaining differences between the two spellings are literal: division by the real D against the
  product with 1/D, the order of the factors under the sum over the channel, a maximum started from
  minus infinity once more, and a sum started from an explicit zero.
-/
import proofs.«429234_j68083821576702_3_alg».proof.Proof.Spec
import Idealize.ShloMosaic.PureOps.Ideal.Laws
import Mathlib.Data.EReal.Inv
import Mathlib.Data.Finset.Fold
import Mathlib.Algebra.BigOperators.Group.Finset.Basic
import Mathlib.Algebra.Order.BigOperators.Group.Finset
import Mathlib.Analysis.SpecialFunctions.Exp

noncomputable section

namespace Cert.Attn

open Idealize.ShloMosaic Idealize.ShloMosaic.ValueIdx

/-! ## The literals -/

/-- The divisor is the real number 11863283 / 2^20. -/
theorem divisor_eq : divisor = ((11863283 / 1048576 : ℝ) : EReal) := by
  unfold divisor
  simp [Ideal.ofBits, Ideal.ieee, -EReal.coe_mul]
  norm_num

/-- The pattern with sign bit set, all exponent bits set and no fraction bit is minus infinity. -/
theorem negInf_eq : negInf = ⊥ := by
  unfold negInf
  simp [Ideal.ofBits, Ideal.ieee]

/-- Dividing by D is multiplying by its reciprocal 2^20 / 11863283. -/
theorem div_divisor (x : EReal) : Ideal.div x divisor = x * scale := by
  have hD : (11863283 / 1048576 : ℝ) ≠ 0 := by norm_num
  rw [divisor_eq, Ideal.div_coe hD, scale]
  congr 2
  norm_num

/-! ## Finite sums and maxima of reals inside the extended reals -/

section Generic

variable {ι : Type*}

/-- The inclusion of the reals commutes with finite sums. -/
theorem coe_finset_sum (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The inclusion of the reals commutes with the binary maximum. -/
theorem coe_max' (a b : ℝ) : max (a : EReal) (b : EReal) = ((max a b : ℝ) : EReal) :=
  (EReal.coe_strictMono.monotone.map_max).symm

/-- A maximum of reals folded from minus infinity is minus infinity or a real. -/
theorem fold_max_coe_aux (s : Finset ι) (f : ι → ℝ) :
    s.fold max (⊥ : EReal) (fun i => ((f i : ℝ) : EReal)) = ⊥ ∨
      ∃ μ : ℝ, s.fold max (⊥ : EReal) (fun i => ((f i : ℝ) : EReal)) = (μ : EReal) := by
  classical
  induction s using Finset.induction_on with
  | empty => left; simp
  | insert a s ha ih =>
    right
    rw [Finset.fold_insert ha]
    rcases ih with h | ⟨μ, h⟩
    · exact ⟨f a, by rw [h, max_bot_right]⟩
    · exact ⟨max (f a) μ, by rw [h, coe_max']⟩

/-- Over a nonempty index set it is a real. -/
theorem fold_max_coe (s : Finset ι) (hs : s.Nonempty) (f : ι → ℝ) :
    ∃ μ : ℝ, s.fold max (⊥ : EReal) (fun i => ((f i : ℝ) : EReal)) = (μ : EReal) := by
  classical
  obtain ⟨a, ha⟩ := hs
  rw [← Finset.insert_erase ha, Finset.fold_insert (Finset.notMem_erase a s)]
  rcases fold_max_coe_aux (s.erase a) f with h | ⟨μ, h⟩
  · exact ⟨f a, by rw [h, max_bot_right]⟩
  · exact ⟨max (f a) μ, by rw [h, coe_max']⟩

/-- The softmax identity: with real scores x, a real shift mu and real values w, normalising each
    weight before the weighted sum equals normalising the weighted sum afterwards. -/
theorem softmax_norm [Fintype ι] [Nonempty ι] (x w : ι → ℝ) (μ : ℝ) :
    (∑ s, ((w s : ℝ) : EReal) *
        Ideal.div (Ideal.exp (((x s : ℝ) : EReal) - (μ : EReal)))
          (0 + ∑ s', Ideal.exp (((x s' : ℝ) : EReal) - (μ : EReal)))) =
      Ideal.div (∑ s, Ideal.exp (((x s : ℝ) : EReal) - (μ : EReal)) * ((w s : ℝ) : EReal))
        (∑ s, Ideal.exp (((x s : ℝ) : EReal) - (μ : EReal))) := by
  have hL : (∑ s, Real.exp (x s - μ)) ≠ 0 :=
    (Finset.sum_pos (fun s _ => Real.exp_pos (x s - μ)) Finset.univ_nonempty).ne'
  simp only [← EReal.coe_sub, Ideal.exp_coe, zero_add]
  rw [coe_finset_sum, Ideal.div_coe hL]
  simp only [Ideal.div_coe hL, ← EReal.coe_mul]
  rw [coe_finset_sum, coe_finset_sum, ← EReal.coe_mul]
  congr 1
  rw [Finset.sum_mul]
  exact Finset.sum_congr rfl (fun s _ => by ring)

end Generic

/-! ## The two spellings of the score, the row maximum and the weight agree (for all entries) -/

theorem scoreR_eq_score (k q : A3.Idx → EReal) (n : Fin 4) (s t : Fin 4096) :
    scoreR k q n s t = score k q n t s := by
  unfold scoreR score
  rw [div_divisor]
  congr 1
  exact Finset.sum_congr rfl (fun c _ => mul_comm _ _)

theorem rowMaxR_eq_rowMax (k q : A3.Idx → EReal) (n : Fin 4) (t : Fin 4096) :
    rowMaxR k q n t = rowMax k q n t := by
  unfold rowMaxR rowMax
  simp only [negInf_eq, max_bot_left, scoreR_eq_score]

theorem weightR_eq_weight (k q : A3.Idx → EReal) (n : Fin 4) (s t : Fin 4096) :
    weightR k q n s t = weight k q n t s := by
  unfold weightR weight
  rw [scoreR_eq_score, rowMaxR_eq_rowMax]

/-! ## The normalisation, for real entries -/

/-- At one output position, for arrays that are images of real arrays. -/
theorem attnRAt_eq_attnAt (kr qr vr : A3.Idx → ℝ) (n : Fin 4) (e : Fin 128) (t : Fin 4096) :
    attnRAt (fun i => ((kr i : ℝ) : EReal)) (fun i => ((qr i : ℝ) : EReal)) (fun i => ((vr i : ℝ) : EReal)) n e t =
      attnAt (fun i => ((kr i : ℝ) : EReal)) (fun i => ((qr i : ℝ) : EReal)) (fun i => ((vr i : ℝ) : EReal)) n e t := by
  -- every score is a real
  have hscore : ∀ s : Fin 4096,
      score (fun i => ((kr i : ℝ) : EReal)) (fun i => ((qr i : ℝ) : EReal)) n t s =
        (((∑ c : Fin 128, qr (ix3 n c t) * kr (ix3 n c s)) * (1048576 / 11863283) : ℝ) : EReal) := by
    intro s
    unfold score scale
    simp only [← EReal.coe_mul]
    rw [coe_finset_sum, ← EReal.coe_mul]
  -- so the row maximum, taken over a nonempty range of positions, is a real
  obtain ⟨μ, hμ⟩ : ∃ μ : ℝ,
      rowMax (fun i => ((kr i : ℝ) : EReal)) (fun i => ((qr i : ℝ) : EReal)) n t = (μ : EReal) := by
    unfold rowMax
    simp only [hscore]
    exact fold_max_coe _ Finset.univ_nonempty _
  unfold attnRAt attnAt
  simp only [weightR_eq_weight, Ideal.ofBits_zero_f32]
  unfold weight
  simp only [hμ, hscore]
  exact softmax_norm (ι := Fin 4096)
    (fun s => (∑ c : Fin 128, qr (ix3 n c t) * kr (ix3 n c s)) * (1048576 / 11863283))
    (fun s => vr (ix3 n e s)) μ

theorem attnR_eq_attn (k q v : A3.Idx → EReal) (hk : ∀ i, ∃ r : ℝ, k i = (r : EReal))
    (hq : ∀ i, ∃ r : ℝ, q i = (r : EReal)) (hv : ∀ i, ∃ r : ℝ, v i = (r : EReal)) :
    attnR k q v = attn k q v := by
  choose kr hkr using hk
  choose qr hqr using hq
  choose vr hvr using hv
  obtain rfl : k = fun i => ((kr i : ℝ) : EReal) := funext hkr
  obtain rfl : q = fun i => ((qr i : ℝ) : EReal) := funext hqr
  obtain rfl : v = fun i => ((vr i : ℝ) : EReal) := funext hvr
  funext i
  exact attnRAt_eq_attnAt kr qr vr (i 0) (i 1) (i 2)

end Cert.Attn

end
-- ==== Proof.Finite.lean ====
/-
  Finiteness of the inputs, read off the printed precondition.

  The precondition is the conjunction of three statements "every entry x of the array satisfies |x| < +infinity",
  one per input array. On the extended reals |x| is max x (-x), which is +infinity at both infinities, so the
  strict comparison holds exactly at the entries that are real numbers.
-/
import proofs.«429234_j68083821576702_3_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Attn

open Idealize.ShloMosaic Idealize.ShloMosaic.ValueIdx

/-- The shape of a scalar result has a single index. -/
instance subsingleton_scalarIdx : Subsingleton Cert.Pre_finite_inputs.S_.Idx :=
  ⟨fun a b => funext fun d => d.elim0⟩

/-- The single-precision pattern of +infinity denotes the top element. -/
theorem ofBits_inf : Ideal.ofBits .f32 0x7F800000#32 = (⊤ : EReal) := by
  simp [Ideal.ofBits, Ideal.ieee]

/-- An extended real whose absolute value max x (-x) is strictly below +infinity is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One element's comparison |x| < +infinity, holding as a one-bit word, makes the element a real number. -/
theorem real_of_cmp (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_inf] at h'
  refine real_of_abs_lt_top x ?_
  by_contra hn
  simp [Ideal.cmp, hn] at h'

/-- The precondition makes every entry of the three inputs a real number. -/
theorem finite_of_pre [Cert.Pre_finite_inputs.Facts]
    (x0 x1 x2 : FVec Ideal Cert.Pre_finite_inputs.S4x128x64x64 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ValueIdx.ix0
  unfold Cert.Pre_finite_inputs.fn at h0
  dsimp only at h0
  obtain ⟨h01, h2⟩ := IntOp.andi_eq_one.1 h0
  obtain ⟨h0', h1⟩ := IntOp.andi_eq_one.1 h01
  refine ⟨fun i => ?_, fun i => ?_, fun i => ?_⟩
  · exact real_of_cmp (x0 i) (Host.reduce_andi_all _ _ _ _ _ h0' i)
  · exact real_of_cmp (x1 i) (Host.reduce_andi_all _ _ _ _ _ h1 i)
  · exact real_of_cmp (x2 i) (Host.reduce_andi_all _ _ _ _ _ h2 i)

end Cert.Attn

end
-- ==== Proof.Claims.lean ====
/-
  The two idealized programs compute one function. The kernel's result is the unflattened attention of the flattened
  arguments with the normalisation after the weighted sum; the reference's is the unflattened attention with each
  weight normalised first and the scores divided by D. Under the precondition every entry of the arguments is a real
  number, and on real entries the two forms agree.
-/
import proofs.«429234_j68083821576702_3_alg».proof.Defs
import proofs.«429234_j68083821576702_3_alg».proof.Proof.KernelValue
import proofs.«429234_j68083821576702_3_alg».proof.Proof.RefValue
import proofs.«429234_j68083821576702_3_alg».proof.Proof.Algebra
import proofs.«429234_j68083821576702_3_alg».proof.Proof.Finite

noncomputable section

namespace Cert.Proof.Claims

open Idealize.ShloMosaic Idealize.ShloMosaic.TcCoe Idealize.SL.Sem

/-- Flattening moves entries and makes none: a flattened array of real entries has real entries. -/
theorem flat_real_keys (x : (⟨Cert.ReferenceIdeal.S4x128x64x64, .f32⟩ : BufTy).Contents (Elt Ideal))
    (hx : ∀ i, ∃ r : ℝ, x i = (r : EReal)) :
    ∀ i, ∃ r : ℝ, Cert.ReferenceIdeal.Hand.kf x i = (r : EReal) := fun i => by
  obtain ⟨r, hr⟩ := hx (Cert.ReferenceIdeal.Read.idx_main_v0 i)
  exact ⟨r, (Cert.ReferenceIdeal.Read.val_main_v0_apply x i).trans hr⟩
theorem flat_real_queries (x : (⟨Cert.ReferenceIdeal.S4x128x64x64, .f32⟩ : BufTy).Contents (Elt Ideal))
    (hx : ∀ i, ∃ r : ℝ, x i = (r : EReal)) :
    ∀ i, ∃ r : ℝ, Cert.ReferenceIdeal.Hand.qf x i = (r : EReal) := fun i => by
  obtain ⟨r, hr⟩ := hx (Cert.ReferenceIdeal.Read.idx_main_v1 i)
  exact ⟨r, (Cert.ReferenceIdeal.Read.val_main_v1_apply x i).trans hr⟩
theorem flat_real_values (x : (⟨Cert.ReferenceIdeal.S4x128x64x64, .f32⟩ : BufTy).Contents (Elt Ideal))
    (hx : ∀ i, ∃ r : ℝ, x i = (r : EReal)) :
    ∀ i, ∃ r : ℝ, Cert.ReferenceIdeal.Hand.vf x i = (r : EReal) := fun i => by
  obtain ⟨r, hr⟩ := hx (Cert.ReferenceIdeal.Read.idx_main_v2 i)
  exact ⟨r, (Cert.ReferenceIdeal.Read.val_main_v2_apply x i).trans hr⟩

theorem algebraic : Cert.algebraic_KernelIdeal_ReferenceIdeal := by
  intro m ρ m' ρ' hpre hagree
  refine ⟨_, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  obtain ⟨f0, f1, f2⟩ := Cert.Attn.finite_of_pre _ _ _ (hpre c)
  rw [Cert.ReferenceIdeal.Read.val_main_v18_eq, (hagree c).1, (hagree c).2.1, (hagree c).2.2]
  unfold Cert.ReferenceIdeal.Read.val_main_v18
  rw [Cert.ReferenceIdeal.Hand.ref_eq_attnR,
    Cert.Attn.attnR_eq_attn _ _ _ (flat_real_keys _ f0) (flat_real_queries _ f1) (flat_real_values _ f2)]
  rfl

end Cert.Proof.Claims

end
-- ==== Proof.lean ====
/-
  Spatial self-attention over a 64 x 64 grid of positions with 128 channels, batch 4: the kernel against its jnp
  reference, on the extended reals.

  Both programs flatten the two spatial axes (4096 positions), form for each batch the 4096 x 4096 scores of queries
  against keys contracted over the channels, scale them, take a softmax over the key positions and mix the values with
  it. They differ in three places: the kernel multiplies the scores by a constant where the reference divides by D, the
  nearest single-precision number to the square root of 128 (the constant is read as exactly 1/D); the kernel divides
  by the softmax's row total after the weighted sum of the values, the reference before it; and the kernel works
  tile by tile, 512 query positions of one batch at a time, the tiles covering the result. With finite inputs every
  intermediate is a real number, the row total is positive, and the two orders of normalisation agree.

  The modules: `Spec` states attention in both forms; `Algebra` proves them equal on real entries; `Finite` reads the
  precondition; `Payload` reads one tile's result at an index; `KernelValue` assembles the tiles into the kernel's result
  array and reads the run; `RefValue` reads the reference at an index; `Claims` joins the two runs.
-/
import proofs.«429234_j68083821576702_3_alg».proof.Defs
import proofs.«429234_j68083821576702_3_alg».proof.Proof.Gen.Kernel
import proofs.«429234_j68083821576702_3_alg».proof.Proof.Gen.Kernel.Skeleton
import proofs.«429234_j68083821576702_3_alg».proof.Proof.Gen.Kernel.Launch
import proofs.«429234_j68083821576702_3_alg».proof.Proof.Gen.Kernel.Points
import proofs.«429234_j68083821576702_3_alg».proof.Proof.Gen.Kernel.Frame
import proofs.«429234_j68083821576702_3_alg».proof.Proof.Gen.KernelIdeal
import proofs.«429234_j68083821576702_3_alg».proof.Proof.Gen.KernelIdeal.Skeleton
import proofs.«429234_j68083821576702_3_alg».proof.Proof.Gen.KernelIdeal.Launch
import proofs.«429234_j68083821576702_3_alg».proof.Proof.Gen.KernelIdeal.Points
import proofs.«429234_j68083821576702_3_alg».proof.Proof.Gen.KernelIdeal.Frame
import proofs.«429234_j68083821576702_3_alg».proof.Proof.Gen.ReferenceIdeal
import proofs.«429234_j68083821576702_3_alg».proof.Proof.Gen.ReferenceIdeal.Run
import proofs.«429234_j68083821576702_3_alg».proof.Proof.Gen.ReferenceIdeal.Read
import proofs.«429234_j68083821576702_3_alg».proof.Proof.Gen.Pre_finite_inputs
import proofs.«429234_j68083821576702_3_alg».proof.Proof.Claims
import Idealize.ShloMosaic.Adequacy
import Idealize.ShloMosaic.Init

noncomputable section

namespace Cert.Proof

open Idealize.ShloMosaic Idealize.SL.Sem Cert.Kernel

/-- The three programs run and keep their arguments; the kernel's scale constant is read as the reciprocal of the
    reference's divisor; and the two idealized programs end with equal results. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  IdealRules.named_const.statement Cert.KernelIdeal.κ "inv_sqrt_c" .f32 0x3DB504F3#32 ((1048576 / 11863283 : ℝ) : EReal) rfl,
  Cert.Proof.Claims.algebraic⟩

end Cert.Proof

end
